-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S245760 : Shape := ⟨1, ![245760]⟩
abbrev S2x16777216 : Shape := ⟨2, ![2, 16777216]⟩
abbrev S16777216x1 : Shape := ⟨2, ![16777216, 1]⟩
abbrev S16777216 : Shape := ⟨1, ![16777216]⟩
abbrev S4096 : Shape := ⟨1, ![4096]⟩
abbrev S_ : Shape := ⟨0, ![]⟩

class Facts : Prop where
  bcast_S_S245760 : S_.BroadcastsInDim S245760 (![] : Fin 0 → Fin S245760.rank)
  reducesTo_S245760_S_d0 : S245760.ReducesTo [0] S_
  h_S_ : 0 < S_.numel
  bcast_S_S16777216x1 : S_.BroadcastsInDim S16777216x1 (![] : Fin 0 → Fin S16777216x1.rank)
  reducesTo_S16777216x1_S_d0_1 : S16777216x1.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v15 : IVec S16777216x1 1) (main_c_5 : IVec S_ 1) : IVec S_ 1 :=
  let main_v16 : IVec S_ 1 := (fun x v => Host.reduce IntOp.andi x v reducesTo_S16777216x1_S_d0_1 h_S_) main_v15 main_c_5
  let main_v17 : IVec S_ 1 := andi main_v13 main_v16
  main_v17

def fn {F : FTy → Type} [FloatOps F] (main_arg0 : FVec F S245760 .f32) (main_arg1 : IVec S2x16777216 32) (main_arg2 : FVec F S16777216x1 .f32) (main_arg3 : IVec S16777216 32) (main_arg4 : FVec F S4096 .f32) : IVec S_ 1 :=
  let main_v0 : FVec F S245760 .f32 := Host.absf main_arg0
  let main_cst : FVec F S_ .f32 := constant S_ .f32 0x7F800000#32
  let main_v1 : FVec F S245760 .f32 := broadcastInDim S245760 ![] bcast_S_S245760 main_cst
  let main_v2 : IVec S245760 1 := cmpf .olt main_v0 main_v1
  let main_c : IVec S_ 1 := constantI S_ 1 1#1
  let main_v3 : IVec S_ 1 := (fun x v => Host.reduce IntOp.andi x v reducesTo_S245760_S_d0 h_S_) main_v2 main_c
  let main_v4 : FVec F S16777216x1 .f32 := Host.absf main_arg2
  let main_cst_0 : FVec F S_ .f32 := constant S_ .f32 0x7F800000#32
  let main_v5 : FVec F S16777216x1 .f32 := broadcastInDim S16777216x1 ![] bcast_S_S16777216x1 main_cst_0
  let main_v6 : IVec S16777216x1 1 := cmpf .olt main_v4 main_v5
  let main_c_1 : IVec S_ 1 := constantI S_ 1 1#1
  let main_v7 : IVec S_ 1 := (fun x v => Host.reduce IntOp.andi x v reducesTo_S16777216x1_S_d0_1 h_S_) main_v6 main_c_1
  let main_v8 : IVec S_ 1 := andi main_v3 main_v7
  let main_v9 : FVec F S4096 .f32 := Host.absf main_arg4
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_cst_4 : FVec F S_ .f32 := constant S_ .f32 0x00000000#32
  let main_v14 : FVec F S16777216x1 .f32 := broadcastInDim S16777216x1 ![] bcast_S_S16777216x1 main_cst_4
  let main_v15 : IVec S16777216x1 1 := cmpf .une main_arg2 main_v14
  let main_c_5 : IVec S_ 1 := constantI S_ 1 1#1
  fn_part1 (F := F) main_v13 main_v15 main_c_5
-- ==== Kernel.lean ====
abbrev S245760 : Shape := ⟨1, ![245760]⟩
abbrev S2x16777216 : Shape := ⟨2, ![2, 16777216]⟩
abbrev S16777216x1 : Shape := ⟨2, ![16777216, 1]⟩
abbrev S16777216 : Shape := ⟨1, ![16777216]⟩
abbrev S4096 : Shape := ⟨1, ![4096]⟩
abbrev S1x16777216 : Shape := ⟨2, ![1, 16777216]⟩
abbrev S_ : Shape := ⟨0, ![]⟩
abbrev S131072x128 : Shape := ⟨2, ![131072, 128]⟩
abbrev S4096x128 : Shape := ⟨2, ![4096, 128]⟩

abbrev nBuf : Space → Nat
  | .hbm => 46
  | .vmem => 8
  | .smem => 0
  | _ => 0

abbrev bufTy : (tb : Table) → Fin (tcTables nBuf tb) → BufTy
  | .hbm, ⟨0, _⟩ => ⟨S245760, .f32⟩
  | .hbm, ⟨1, _⟩ => ⟨S2x16777216, .i32⟩
  | .hbm, ⟨2, _⟩ => ⟨S16777216x1, .f32⟩
  | .hbm, ⟨3, _⟩ => ⟨S16777216, .i32⟩
  | .hbm, ⟨4, _⟩ => ⟨S4096, .f32⟩
  | .hbm, ⟨5, _⟩ => ⟨S1x16777216, .i32⟩
  | .hbm, ⟨6, _⟩ => ⟨S16777216, .i32⟩
  | .hbm, ⟨7, _⟩ => ⟨S1x16777216, .i32⟩
  | .hbm, ⟨8, _⟩ => ⟨S16777216, .i32⟩
  | .hbm, ⟨9, _⟩ => ⟨S16777216, .i1⟩
  | .hbm, ⟨10, _⟩ => ⟨S_, .i32⟩
  | .hbm, ⟨11, _⟩ => ⟨S16777216, .i32⟩
  | .hbm, ⟨12, _⟩ => ⟨S16777216, .i1⟩
  | .hbm, ⟨13, _⟩ => ⟨S_, .i32⟩
  | .hbm, ⟨14, _⟩ => ⟨S16777216, .i32⟩
  | .hbm, ⟨15, _⟩ => ⟨S16777216, .i32⟩
  | .hbm, ⟨16, _⟩ => ⟨S16777216, .i32⟩
  | .hbm, ⟨17, _⟩ => ⟨S16777216x1, .i32⟩
  | .hbm, ⟨18, _⟩ => ⟨S16777216, .f32⟩
  | .hbm, ⟨19, _⟩ => ⟨S_, .f32⟩
  | .hbm, ⟨20, _⟩ => ⟨S_, .f32⟩
  | .hbm, ⟨21, _⟩ => ⟨S16777216, .f32⟩
  | .hbm, ⟨22, _⟩ => ⟨S16777216, .f32⟩
  | .hbm, ⟨23, _⟩ => ⟨S_, .i32⟩
  | .hbm, ⟨24, _⟩ => ⟨S16777216, .i32⟩
  | .hbm, ⟨25, _⟩ => ⟨S16777216, .i1⟩
  | .hbm, ⟨26, _⟩ => ⟨S_, .i32⟩
  | .hbm, ⟨27, _⟩ => ⟨S16777216, .i32⟩
  | .hbm, ⟨28, _⟩ => ⟨S16777216, .i32⟩
  | .hbm, ⟨29, _⟩ => ⟨S16777216, .i32⟩
  | .hbm, ⟨30, _⟩ => ⟨S16777216x1, .i32⟩
  | .hbm, ⟨31, _⟩ => ⟨S16777216, .f32⟩
  | .hbm, ⟨32, _⟩ => ⟨S16777216, .f32⟩
  | .hbm, ⟨33, _⟩ => ⟨S131072x128, .f32⟩
  | .hbm, ⟨34, _⟩ => ⟨S131072x128, .f32⟩
  | .hbm, ⟨35, _⟩ => ⟨S131072x128, .f32⟩
  | .hbm, ⟨36, _⟩ => ⟨S131072x128, .f32⟩
  | .hbm, ⟨37, _⟩ => ⟨S16777216, .f32⟩
  | .hbm, ⟨38, _⟩ => ⟨S_, .f32⟩
  | .hbm, ⟨39, _⟩ => ⟨S4096, .f32⟩
  | .hbm, ⟨40, _⟩ => ⟨S16777216x1, .i32⟩
  | .hbm, ⟨41, _⟩ => ⟨S4096, .f32⟩
  | .hbm, ⟨42, _⟩ => ⟨S4096, .f32⟩
  | .hbm, ⟨43, _⟩ => ⟨S_, .f32⟩
  | .hbm, ⟨44, _⟩ => ⟨S4096, .f32⟩
  | .hbm, ⟨45, _⟩ => ⟨S4096, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S4096x128, .f32⟩
  | .local _ .vmem, ⟨7, _⟩ => ⟨S4096x128, .f32⟩
  | _, _ => ⟨S245760, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_call0_v0 : Ref sig .tc := ⟨.hbm, 20, rfl⟩
abbrev main_call0_v1 : Ref sig .tc := ⟨.hbm, 21, rfl⟩
abbrev main_v12 : Ref sig .tc := ⟨.hbm, 22, rfl⟩
abbrev main_c_1 : Ref sig .tc := ⟨.hbm, 23, rfl⟩
abbrev main_v13 : Ref sig .tc := ⟨.hbm, 24, rfl⟩
abbrev main_v14 : Ref sig .tc := ⟨.hbm, 25, rfl⟩
abbrev main_c_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S2x16777216_S1x16777216_0_0 : S2x16777216.Slices ![0, 0] S1x16777216
  shapeCasts_S1x16777216_S16777216 : S1x16777216.ShapeCasts S16777216
  slices_S2x16777216_S1x16777216_1_0 : S2x16777216.Slices ![1, 0] S1x16777216
  bcast_S_S16777216 : S_.BroadcastsInDim S16777216 (![] : Fin 0 → Fin S16777216.rank)
  bcast_S16777216_S16777216x1_0 : S16777216.BroadcastsInDim S16777216x1 (![0] : Fin 1 → Fin S16777216x1.rank)
  shapeCasts_S16777216x1_S16777216 : S16777216x1.ShapeCasts S16777216
  shapeCasts_S16777216_S131072x128 : S16777216.ShapeCasts S131072x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  shapeCasts_S131072x128_S16777216 : S131072x128.ShapeCasts S16777216
  bcast_S_S4096 : S_.BroadcastsInDim S4096 (![] : Fin 0 → Fin S4096.rank)
  gather_S245760_S16777216x1_S16777216_n_0_n_n_0_1_1_wf : GatherDims.WF S245760 S16777216x1 S16777216 [] [0] [] [0] [] 1 ![1]
  scatter_S4096_S16777216x1_S16777216_n_0_0_1_wf : ScatterDims.WF S4096 S16777216x1 S16777216 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S131072x128.size a
  hwx0_0 : ∀ i : grid0.Coords, EltTy.bits .f32 = 32 ∨ (Rect.block (s := S131072x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S131072x128.size a
  hwx0_1 : ∀ i : grid0.Coords, EltTy.bits .f32 = 32 ∨ (Rect.block (s := S131072x128) S4096x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x128.size a ≤ S131072x128.size a
  hwx0_2 : ∀ i : grid0.Coords, EltTy.bits .f32 = 32 ∨ (Rect.block (s := S131072x128) S4096x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x128.size a ≤ S131072x128.size a
  hwx0_3 : ∀ i : grid0.Coords, EltTy.bits .f32 = 32 ∨ (Rect.block (s := S131072x128) S4096x128.size (cc0_transform_3 i) (hinb0_3 i)).WholeWords (EltTy.packing .f32)

variable [Facts₀]

def gather_S245760_S16777216x1_S16777216_n_0_n_n_0_1_1 : GatherDims S245760 S16777216x1 S16777216 where
  offsetDims := []
  collapsedSliceDims := [0]
  operandBatchingDims := []
  startIndicesBatchingDims := []
  startIndexMap := [0]
  indexVectorDim := 1
  sliceSizes := ![1]
  wf := gather_S245760_S16777216x1_S16777216_n_0_n_n_0_1_1_wf
def scatter_S4096_S16777216x1_S16777216_n_0_0_1 : ScatterDims S4096 S16777216x1 S16777216 where
  updateWindowDims := []
  insertedWindowDims := [0]
  scatterDimsToOperandDims := [0]
  indexVectorDim := 1
  wf := scatter_S4096_S16777216x1_S16777216_n_0_0_1_wf

abbrev win0_0 : Pipeline.Window sig grid0 :=
  Pipeline.Window.ofSpec (Memref.whole main_v21) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S4096x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v24) S4096x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S245760 : Shape := ⟨1, ![245760]⟩
abbrev S2x16777216 : Shape := ⟨2, ![2, 16777216]⟩
abbrev S16777216x1 : Shape := ⟨2, ![16777216, 1]⟩
abbrev S16777216 : Shape := ⟨1, ![16777216]⟩
abbrev S4096 : Shape := ⟨1, ![4096]⟩
abbrev S1x16777216 : Shape := ⟨2, ![1, 16777216]⟩
abbrev S_ : Shape := ⟨0, ![]⟩

abbrev nBuf : Space → Nat
  | .hbm => 88
  | .vmem => 0
  | .smem => 0
  | _ => 0

abbrev bufTy : (tb : Table) → Fin (tcTables nBuf tb) → BufTy
  | .hbm, ⟨0, _⟩ => ⟨S245760, .f32⟩
  | .hbm, ⟨1, _⟩ => ⟨S2x16777216, .i32⟩
  | .hbm, ⟨2, _⟩ => ⟨S16777216x1, .f32⟩
  | .hbm, ⟨3, _⟩ => ⟨S16777216, .i32⟩
  | .hbm, ⟨4, _⟩ => ⟨S4096, .f32⟩
  | .hbm, ⟨5, _⟩ => ⟨S1x16777216, .i32⟩
  | .hbm, ⟨6, _⟩ => ⟨S16777216, .i32⟩
  | .hbm, ⟨7, _⟩ => ⟨S1x16777216, .i32⟩
  | .hbm, ⟨8, _⟩ => ⟨S16777216, .i32⟩
  | .hbm, ⟨9, _⟩ => ⟨S16777216, .i1⟩
  | .hbm, ⟨10, _⟩ => ⟨S16777216, .f32⟩
  | .hbm, ⟨11, _⟩ => ⟨S_, .f32⟩
  | .hbm, ⟨12, _⟩ => ⟨S16777216, .f32⟩
  | .hbm, ⟨13, _⟩ => ⟨S16777216, .f32⟩
  | .hbm, ⟨14, _⟩ => ⟨S_, .f32⟩
  | .hbm, ⟨15, _⟩ => ⟨S16777216, .f32⟩
  | .hbm, ⟨16, _⟩ => ⟨S16777216, .f32⟩
  | .hbm, ⟨17, _⟩ => ⟨S16777216, .f32⟩
  | .hbm, ⟨18, _⟩ => ⟨S16777216, .f32⟩
  | .hbm, ⟨19, _⟩ => ⟨S16777216, .f32⟩
  | .hbm, ⟨20, _⟩ => ⟨S_, .f32⟩
  | .hbm, ⟨21, _⟩ => ⟨S16777216, .f32⟩
  | .hbm, ⟨22, _⟩ => ⟨S16777216, .f32⟩
  | .hbm, ⟨23, _⟩ => ⟨S_, .f32⟩
  | .hbm, ⟨24, _⟩ => ⟨S16777216, .f32⟩
  | .hbm, ⟨25, _⟩ => ⟨S16777216, .f32⟩
  | .hbm, ⟨26, _⟩ => ⟨S16777216, .f32⟩
  | .hbm, ⟨27, _⟩ => ⟨S16777216, .f32⟩
  | .hbm, ⟨28, _⟩ => ⟨S_, .f32⟩
  | .hbm, ⟨29, _⟩ => ⟨S16777216, .f32⟩
  | .hbm, ⟨30, _⟩ => ⟨S16777216, .f32⟩
  | .hbm, ⟨31, _⟩ => ⟨S16777216, .f32⟩
  | .hbm, ⟨32, _⟩ => ⟨S16777216, .f32⟩
  | .hbm, ⟨33, _⟩ => ⟨S16777216, .f32⟩
  | .hbm, ⟨34, _⟩ => ⟨S_, .f32⟩
  | .hbm, ⟨35, _⟩ => ⟨S16777216, .f32⟩
  | .hbm, ⟨36, _⟩ => ⟨S16777216, .f32⟩
  | .hbm, ⟨37, _⟩ => ⟨S16777216, .f32⟩
  | .hbm, ⟨38, _⟩ => ⟨S_, .f32⟩
  | .hbm, ⟨39, _⟩ => ⟨S16777216, .f32⟩
  | .hbm, ⟨40, _⟩ => ⟨S16777216, .i1⟩
  | .hbm, ⟨41, _⟩ => ⟨S_, .f32⟩
  | .hbm, ⟨42, _⟩ => ⟨S_, .f32⟩
  | .hbm, ⟨43, _⟩ => ⟨S16777216, .f32⟩
  | .hbm, ⟨44, _⟩ => ⟨S16777216, .f32⟩
  | .hbm, ⟨45, _⟩ => ⟨S16777216, .f32⟩
  | .hbm, ⟨46, _⟩ => ⟨S_, .f32⟩
  | .hbm, ⟨47, _⟩ => ⟨S16777216, .f32⟩
  | .hbm, ⟨48, _⟩ => ⟨S16777216, .f32⟩
  | .hbm, ⟨49, _⟩ => ⟨S16777216, .f32⟩
  | .hbm, ⟨50, _⟩ => ⟨S16777216, .f32⟩
  | .hbm, ⟨51, _⟩ => ⟨S_, .f32⟩
  | .hbm, ⟨52, _⟩ => ⟨S16777216, .f32⟩
  | .hbm, ⟨53, _⟩ => ⟨S16777216, .f32⟩
  | .hbm, ⟨54, _⟩ => ⟨S16777216, .f32⟩
  | .hbm, ⟨55, _⟩ => ⟨S16777216, .f32⟩
  | .hbm, ⟨56, _⟩ => ⟨S_, .i32⟩
  | .hbm, ⟨57, _⟩ => ⟨S16777216, .i32⟩
  | .hbm, ⟨58, _⟩ => ⟨S16777216, .i1⟩
  | .hbm, ⟨59, _⟩ => ⟨S_, .i32⟩
  | .hbm, ⟨60, _⟩ => ⟨S16777216, .i32⟩
  | .hbm, ⟨61, _⟩ => ⟨S16777216, .i32⟩
  | .hbm, ⟨62, _⟩ => ⟨S16777216, .i32⟩
  | .hbm, ⟨63, _⟩ => ⟨S16777216x1, .i32⟩
  | .hbm, ⟨64, _⟩ => ⟨S16777216, .f32⟩
  | .hbm, ⟨65, _⟩ => ⟨S_, .i32⟩
  | .hbm, ⟨66, _⟩ => ⟨S16777216, .i32⟩
  | .hbm, ⟨67, _⟩ => ⟨S16777216, .i1⟩
  | .hbm, ⟨68, _⟩ => ⟨S_, .i32⟩
  | .hbm, ⟨69, _⟩ => ⟨S16777216, .i32⟩
  | .hbm, ⟨70, _⟩ => ⟨S16777216, .i32⟩
  | .hbm, ⟨71, _⟩ => ⟨S16777216, .i32⟩
  | .hbm, ⟨72, _⟩ => ⟨S16777216x1, .i32⟩
  | .hbm, ⟨73, _⟩ => ⟨S16777216, .f32⟩
  | .hbm, ⟨74, _⟩ => ⟨S16777216, .f32⟩
  | .hbm, ⟨75, _⟩ => ⟨S16777216, .f32⟩
  | .hbm, ⟨76, _⟩ => ⟨S_, .f32⟩
  | .hbm, ⟨77, _⟩ => ⟨S_, .f32⟩
  | .hbm, ⟨78, _⟩ => ⟨S16777216, .f32⟩
  | .hbm, ⟨79, _⟩ => ⟨S16777216, .f32⟩
  | .hbm, ⟨80, _⟩ => ⟨S_, .f32⟩
  | .hbm, ⟨81, _⟩ => ⟨S4096, .f32⟩
  | .hbm, ⟨82, _⟩ => ⟨S16777216x1, .i32⟩
  | .hbm, ⟨83, _⟩ => ⟨S4096, .f32⟩
  | .hbm, ⟨84, _⟩ => ⟨S4096, .f32⟩
  | .hbm, ⟨85, _⟩ => ⟨S_, .f32⟩
  | .hbm, ⟨86, _⟩ => ⟨S4096, .f32⟩
  | .hbm, ⟨87, _⟩ => ⟨S4096, .f32⟩
  | _, _ => ⟨S245760, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_cst_6 : Ref sig .tc := ⟨.hbm, 41, rfl⟩
abbrev main_call0_v0 : Ref sig .tc := ⟨.hbm, 42, rfl⟩
abbrev main_call0_v1 : Ref sig .tc := ⟨.hbm, 43, rfl⟩
abbrev main_v29 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_8 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_c : Ref sig .tc := ⟨.hbm, 56, rfl⟩
abbrev main_v39 : Ref sig .tc := ⟨.hbm, 57, rfl⟩
abbrev main_v40 : Ref sig .tc := ⟨.hbm, 58, rfl⟩
abbrev main_c_9 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_c_10 : Ref sig .tc := ⟨.hbm, 65, rfl⟩
abbrev main_v46 : Ref sig .tc := ⟨.hbm, 66, rfl⟩
abbrev main_v47 : Ref sig .tc := ⟨.hbm, 67, rfl⟩
abbrev main_c_11 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_12 : Ref sig .tc := ⟨.hbm, 76, rfl⟩
abbrev main_call1_v0 : Ref sig .tc := ⟨.hbm, 77, rfl⟩
abbrev main_call1_v1 : Ref sig .tc := ⟨.hbm, 78, rfl⟩
abbrev main_v55 : Ref sig .tc := ⟨.hbm, 79, rfl⟩
abbrev main_cst_13 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_14 : Ref sig .tc := ⟨.hbm, 85, rfl⟩
abbrev main_v60 : Ref sig .tc := ⟨.hbm, 86, rfl⟩
abbrev main_v61 : Ref sig .tc := ⟨.hbm, 87, rfl⟩

abbrev nD : Nat := 1
abbrev τ : Topo := Topo.v7x

variable {F : FTy → Type} [FloatOps F]

class Facts₀ : Prop where
  slices_S2x16777216_S1x16777216_0_0 : S2x16777216.Slices ![0, 0] S1x16777216
  shapeCasts_S1x16777216_S16777216 : S1x16777216.ShapeCasts S16777216
  slices_S2x16777216_S1x16777216_1_0 : S2x16777216.Slices ![1, 0] S1x16777216
  shapeCasts_S16777216x1_S16777216 : S16777216x1.ShapeCasts S16777216
  bcast_S_S16777216 : S_.BroadcastsInDim S16777216 (![] : Fin 0 → Fin S16777216.rank)
  bcast_S16777216_S16777216x1_0 : S16777216.BroadcastsInDim S16777216x1 (![0] : Fin 1 → Fin S16777216x1.rank)
  bcast_S_S4096 : S_.BroadcastsInDim S4096 (![] : Fin 0 → Fin S4096.rank)
  gather_S245760_S16777216x1_S16777216_n_0_n_n_0_1_1_wf : GatherDims.WF S245760 S16777216x1 S16777216 [] [0] [] [0] [] 1 ![1]
  scatter_S4096_S16777216x1_S16777216_n_0_0_1_wf : ScatterDims.WF S4096 S16777216x1 S16777216 [] [0] [0] 1

variable [Facts₀]

def gather_S245760_S16777216x1_S16777216_n_0_n_n_0_1_1 : GatherDims S245760 S16777216x1 S16777216 where
  offsetDims := []
  collapsedSliceDims := [0]
  operandBatchingDims := []
  startIndicesBatchingDims := []
  startIndexMap := [0]
  indexVectorDim := 1
  sliceSizes := ![1]
  wf := gather_S245760_S16777216x1_S16777216_n_0_n_n_0_1_1_wf
def scatter_S4096_S16777216x1_S16777216_n_0_0_1 : ScatterDims S4096 S16777216x1 S16777216 where
  updateWindowDims := []
  insertedWindowDims := [0]
  scatterDimsToOperandDims := [0]
  indexVectorDim := 1
  wf := scatter_S4096_S16777216x1_S16777216_n_0_0_1_wf

class Facts : Prop extends Facts₀ where

variable [Facts]
-- ==== Proof.BlendLaw.lean ====
/-
  The cutoff-blended Coulomb term of one atom pair, on the extended reals, in the two arrangements the programs
  compute it in, and the law that joins them.

  For a pair at distance `d`, with `u = 2d` and the smooth cutoff `φ = 1 - 6u⁵ + 15u⁴ - 10u³` where `u < 1` (zero
  elsewhere), the pair's factor is `χ(d) = φ / √(d² + 1) + (1 - φ) / d` and its term is `qᵢ · qⱼ · χ(d)`, kept only
  where the pair's first index is below its second.

  One arrangement scales `u` by a product with one, takes `u⁵` as `(u²·u²)·u`, multiplies by the reciprocal square
  root and by the reciprocal `1 / d`, and drops a pair by zeroing its first charge before the products. The other
  divides `u` by one, takes `u⁵` as `u·(u²·u²)`, divides by the square root and by `d`, and drops a pair by
  selecting zero after the products. On the extended reals a product with one and a quotient by one are both the
  identity, the product is commutative, and zero times anything is zero; for a REAL NONZERO `d` the number
  `d² + 1` is a positive real, so the reciprocal square root is the reciprocal of the square root and a quotient by
  it — or by `d` — is the product with the reciprocal, whatever the dividend (an infinity included). At `d = 0` the
  two would differ (`0 · (1/0) = 0` against `0 / 0`), which is why the distance is assumed nonzero.
-/
import Idealize.ShloMosaic.PureOps.Ideal
import Idealize.ShloMosaic.PureOps.Ideal.Laws
import Idealize.ShloMosaic.Lib.IdealHost
import Idealize.ShloMosaic.Lib.ValueIdx

noncomputable section

open Idealize.ShloMosaic

namespace Cert.Coulomb

/-! ## The numbers the two programs spell (as f32 words: the same word on both sides is never evaluated) -/

abbrev w0 : EReal := Ideal.ofBits .f32 0x00000000#32
abbrev w1 : EReal := Ideal.ofBits .f32 0x3F800000#32
abbrev w2 : EReal := Ideal.ofBits .f32 0x40000000#32
abbrev w6 : EReal := Ideal.ofBits .f32 0x40C00000#32
abbrev w15 : EReal := Ideal.ofBits .f32 0x41700000#32
abbrev w10 : EReal := Ideal.ofBits .f32 0x41200000#32

theorem w0_eq : w0 = 0 := Ideal.ofBits_zero_f32
theorem w1_eq : w1 = 1 := Ideal.ofBits_one_f32

/-- A quotient by one is the dividend, at the infinities too. -/
theorem idiv_one (x : EReal) : Ideal.div x 1 = x := by
  rw [← EReal.coe_one, Ideal.div_coe one_ne_zero]
  simp

/-! ## The first arrangement: products, the reciprocal square root, the reciprocal of the distance -/

/-- `u = (2·d)·1`. -/
def uK (d : EReal) : EReal := (w2 * d) * w1
/-- `1 - 6·((u²·u²)·u) + 15·(u²·u²) - 10·(u²·u)`. -/
def polyK (u : EReal) : EReal := ((w1 - w6 * (((u * u) * (u * u)) * u)) + w15 * ((u * u) * (u * u))) - w10 * ((u * u) * u)
/-- The cutoff: the polynomial below `u = 1`, zero from there on. -/
def phiK (d : EReal) : EReal := Scalar.select (Ideal.cmp .olt (uK d) w1) (polyK (uK d)) w0
/-- `φ · rsqrt(d² + 1) + (1 - φ) · (1 / d)`. -/
def chiK (d : EReal) : EReal := phiK d * Ideal.rsqrt (d * d + w1) + (w1 - phiK d) * Ideal.div w1 d
/-- The pair's term from an (already masked) first charge `a`, the second charge `b` and the distance. -/
def contribK (a b d : EReal) : EReal := (a * b) * chiK d

/-! ## The second arrangement: quotients, the square root, the selection after the products -/

/-- `u = (2·d) / 1`. -/
def uR (d : EReal) : EReal := Ideal.div (w2 * d) w1
/-- `1 - 6·(u·(u²·u²)) + 15·(u²·u²) - 10·(u²·u)`. -/
def polyR (u : EReal) : EReal := ((w1 - w6 * (u * ((u * u) * (u * u)))) + w15 * ((u * u) * (u * u))) - w10 * ((u * u) * u)
def phiR (d : EReal) : EReal := Scalar.select (Ideal.cmp .olt (uR d) w1) (polyR (uR d)) w0
/-- `φ / √(d² + 1) + (1 - φ) / d`. -/
def chiR (d : EReal) : EReal := Ideal.div (phiR d) (Ideal.sqrt (d * d + w1)) + Ideal.div (w1 - phiR d) d
/-- The pair's term, kept where the bit `c` is set and zero elsewhere. -/
def contribR (c : BitVec 1) (gi gj d : EReal) : EReal := Scalar.select c ((gi * gj) * chiR d) w0

/-! ## The law -/

/-- For a real nonzero distance, and ANY extended real `φ`: blending by the reciprocal square root and the
    reciprocal distance is blending by the two quotients. `d² + 1` is a positive real, so neither square-root form is
    at a corner, and a quotient by a nonzero real is the product with its reciprocal. -/
theorem blend_eq (φ : EReal) (r : ℝ) (hr : r ≠ 0) :
    φ * Ideal.rsqrt ((r : EReal) * r + 1) + (1 - φ) * Ideal.div 1 r
      = Ideal.div φ (Ideal.sqrt ((r : EReal) * r + 1)) + Ideal.div (1 - φ) r := by
  have hs : (r : EReal) * r + 1 = ((r * r + 1 : ℝ) : EReal) := by
    rw [EReal.coe_add, EReal.coe_mul, EReal.coe_one]
  have hpos : 0 < r * r + 1 := add_pos_of_nonneg_of_pos (mul_self_nonneg r) one_pos
  have hsq : Real.sqrt (r * r + 1) ≠ 0 := (Real.sqrt_pos.mpr hpos).ne'
  rw [hs]
  simp only [Ideal.rsqrt_coe, Ideal.sqrt_coe, if_neg (not_lt.mpr hpos.le), if_neg hpos.ne', Ideal.div_coe hsq,
    Ideal.div_coe hr, one_mul, one_div]

/-- THE TWO ARRANGEMENTS AGREE at a real nonzero distance, for any charges (infinite ones included) and either
    value of the pair's bit. -/
theorem contrib_eq (c : BitVec 1) (gi gj : EReal) (r : ℝ) (hr : r ≠ 0) :
    contribK (Scalar.select c gi w0) gj (r : EReal) = contribR c gi gj (r : EReal) := by
  have hu : uK (r : EReal) = uR (r : EReal) := by
    unfold uK uR
    rw [w1_eq, mul_one, idiv_one]
  have hp : ∀ u : EReal, polyK u = polyR u := fun u => by
    unfold polyK polyR
    rw [mul_comm ((u * u) * (u * u)) u]
  have hφ : phiK (r : EReal) = phiR (r : EReal) := by
    unfold phiK phiR
    rw [hu, hp]
  have hχ : chiK (r : EReal) = chiR (r : EReal) := by
    unfold chiK chiR
    rw [hφ, w1_eq]
    exact blend_eq _ r hr
  unfold contribK contribR
  rw [hχ]
  by_cases hc : c = 1#1
  · subst hc
    rw [ValueIdx.select_one, ValueIdx.select_one]
  · have h0 := ValueIdx.eq_zero_of_ne_one hc
    subst h0
    rw [ValueIdx.select_zero, ValueIdx.select_zero, w0_eq, zero_mul, zero_mul]

end Cert.Coulomb

end
-- ==== Proof.Distances.lean ====
/-
  What the precondition says of the distances: every entry is a real number and is not zero.

  The precondition is a conjunction of four `all`s; two of them speak of the distance array: `|d| < +∞` at every entry
  (so no entry is an infinity) and `d ≠ 0` at every entry. An `all` that came out true was true at every entry, and a
  conjunction that came out true had every conjunct true.
-/
import proofs.«118864_j58128087384372_1_alg».proof.Pre_finite_inputs
import proofs.«118864_j58128087384372_1_alg».proof.Proof.Gen.Pre_finite_inputs
import Idealize.ShloMosaic.Lib.ReduceAll
import Idealize.ShloMosaic.Lib.ValueIdx
import Idealize.ShloMosaic.PureOps.Ideal.Laws

noncomputable section

namespace Cert.Pre_finite_inputs.Decode

open Idealize.ShloMosaic Cert.Pre_finite_inputs Cert.Pre_finite_inputs.Gen

/-- The scalar shape has one index. -/
instance : Subsingleton S_.Idx := ⟨fun a b => funext fun d => d.elim0⟩

/-- Under the precondition every distance is a nonzero real. -/
theorem dist_real_ne_zero (q : FVec Ideal S245760 .f32) (P : IVec S2x16777216 32) (D : FVec Ideal S16777216x1 .f32)
    (S : IVec S16777216 32) (E : FVec Ideal S4096 .f32)
    (h : fn (F := Ideal) q P D S E = fun _ => 1#1) (i : S16777216x1.Idx) : ∃ r : ℝ, r ≠ 0 ∧ D i = (r : EReal) := by
  have h0 := congrFun h ValueIdx.ix0
  dsimp only [fn, fn_part1] at h0
  obtain ⟨h123, h16⟩ := IntOp.andi_eq_one.1 h0
  obtain ⟨h12, -⟩ := IntOp.andi_eq_one.1 h123
  obtain ⟨-, h7⟩ := IntOp.andi_eq_one.1 h12
  have e7 := Host.reduce_andi_all _ _ _ _ _ h7 i
  have e16 := Host.reduce_andi_all _ _ _ _ _ h16 i
  have hinf : Ideal.ofBits .f32 0x7F800000#32 = (⊤ : EReal) := by simp [Ideal.ofBits, Ideal.ieee]
  have e7' : Ideal.cmp .olt (max (D i) (-(D i))) ⊤ = 1#1 := by rw [← hinf]; exact e7
  have e16' : Ideal.cmp .une (D i) 0 = 1#1 := by rw [← Ideal.ofBits_zero_f32]; exact e16
  generalize D i = x at e7' e16' ⊢
  induction x using EReal.rec with
  | bot => exfalso; simp [Ideal.cmp] at e7'
  | top => exfalso; simp [Ideal.cmp] at e7'
  | coe r =>
    refine ⟨r, ?_, rfl⟩
    intro hr
    subst hr
    simp [Ideal.cmp] at e16'

end Cert.Pre_finite_inputs.Decode

end
-- ==== Proof.KernelValue.lean ====
/-
  What the kernel's result array holds, at the extended reals.

  The one pipelined region walks the 131072 × 128 arrays in 32 blocks of 4096 rows. At every grid point it reads the
  block of the (masked) first charges, of the second charges and of the distances at the SAME rows, and stores one
  block of pair terms; the body is pointwise, so the array it leaves is one pointwise function of the three arrays
  it was given — each entry the pair's term `(a · b) · χ(d)` of the entries at that index. The 32 blocks tile the
  array (block `t` is rows `4096·t … 4096·t + 4095`), so every entry is written by exactly the point `row / 4096`.
-/
import proofs.«118864_j58128087384372_1_alg».proof.Proof.Gen.KernelIdeal.Frame
import proofs.«118864_j58128087384372_1_alg».proof.Proof.BlendLaw
import Idealize.ShloMosaic.Lib.Pipeline.Value
import Idealize.ShloMosaic.Lib.ValueIdx
import Idealize.ShloMosaic.Lib.StableHlo.Run

set_option maxRecDepth 16384

noncomputable section

namespace Cert.KernelIdeal.PairValue

open Cert.KernelIdeal Cert.KernelIdeal.Gen Idealize.ShloMosaic Idealize.ShloMosaic.TcCoe Idealize.SL.Sem
open Idealize.ShloMosaic.Pipeline (Dat)
open Cert.Coulomb

variable (m : (ℓ : Loc nD τ sig) → Buf (Elt Ideal) ℓ) (ρ : Dev nD → PrngReg)

/-! ## The body at one entry -/

/-- The body's stored value at an entry is the pair's term of the three loaded entries: every operation of the body is
    pointwise, and a shape cast to the same shape is the identity. -/
theorem pay_apply (x2 x0 x1 : Vec Ideal S4096x128 .f32) (i : S4096x128.Idx) :
    k0_pay1 (F := Ideal) x2 x0 x1 i = contribK (x0 i) (x1 i) (x2 i) := by
  unfold k0_pay1
  simp only [shapeCast_self]
  rfl

/-! ## The whole array -/

/-- The three arrays the region is given, at their literal type. -/
abbrev arrA (c : Dev nD) : Vec Ideal S131072x128 .f32 := V m c main_v21
abbrev arrB (c : Dev nD) : Vec Ideal S131072x128 .f32 := V m c main_v22
abbrev arrD (c : Dev nD) : Vec Ideal S131072x128 .f32 := V m c main_v23

/-- The pair terms over the whole array, entry by entry. -/
def G (c : Dev nD) : Vec Ideal S131072x128 .f32 := fun i => contribK (arrA m c i) (arrB m c i) (arrD m c i)

theorem hz : (![0, 0] : Fin 2 → Nat) = fun _ => 0 := funext fun a => by fin_cases a <;> rfl

/-- Every window's block index at point `t` is `(t, 0)`: the four windows move together, one block of rows a point. -/
theorem idx_facts : ∀ t : Fin cfg0.N, win0_0.index t (0 : Fin 2) = win0_3.index t (0 : Fin 2)
    ∧ win0_0.index t (1 : Fin 2) = win0_3.index t (1 : Fin 2)
    ∧ win0_1.index t (0 : Fin 2) = win0_3.index t (0 : Fin 2)
    ∧ win0_1.index t (1 : Fin 2) = win0_3.index t (1 : Fin 2)
    ∧ win0_2.index t (0 : Fin 2) = win0_3.index t (0 : Fin 2)
    ∧ win0_2.index t (1 : Fin 2) = win0_3.index t (1 : Fin 2)
    ∧ win0_3.index t (0 : Fin 2) = t.val ∧ win0_3.index t (1 : Fin 2) = 0 :=
  (by decide +kernel : ∀ t : Fin grid0.N, _)

/-- WHAT POINT `t` WRITES BACK is block `t` of the pair terms `G`. -/
theorem flushed_eq (c : Dev nD) (t : Fin cfg0.N) :
    (dats m 0 c).flushed 3 t = ((cfg0.win 3).blk t).view.read (Elt Ideal) (G m c) := by
  show (cfg0.win 3).cut (grid0.coords t) ((dats m 0 c).after 3 t) = _
  rw [after0_3]
  unfold out0_3
  rw [View.canon_unit_zero hz]
  simp only [View.ld_unit_zero (S := S4096x128) hz]
  obtain ⟨e0, e1, e2, e3, e4, e5, e6, e7⟩ := idx_facts t
  funext j
  show k0_pay1 (F := Ideal) (iblk m c 2 t) (iblk m c 0 t) (iblk m c 1 t) j = G m c (((cfg0.win 3).blk t).view.emb j)
  refine (pay_apply (iblk m c 2 t) (iblk m c 0 t) (iblk m c 1 t) j).trans ?_
  show contribK (arrA m c (((cfg0.win 0).blk t).view.emb j)) (arrB m c (((cfg0.win 1).blk t).view.emb j)) (arrD m c (((cfg0.win 2).blk t).view.emb j))
    = contribK (arrA m c (((cfg0.win 3).blk t).view.emb j)) (arrB m c (((cfg0.win 3).blk t).view.emb j)) (arrD m c (((cfg0.win 3).blk t).view.emb j))
  have h0 : ((cfg0.win 0).blk t).view.emb j = ((cfg0.win 3).blk t).view.emb j := by
    funext a; apply Fin.ext
    match a with
    | ⟨0, _⟩ => show win0_0.index t (0 : Fin 2) * 4096 + 1 * (j 0).val = win0_3.index t (0 : Fin 2) * 4096 + 1 * (j 0).val; omega
    | ⟨1, _⟩ => show win0_0.index t (1 : Fin 2) * 128 + 1 * (j 1).val = win0_3.index t (1 : Fin 2) * 128 + 1 * (j 1).val; omega
  have h1 : ((cfg0.win 1).blk t).view.emb j = ((cfg0.win 3).blk t).view.emb j := by
    funext a; apply Fin.ext
    match a with
    | ⟨0, _⟩ => show win0_1.index t (0 : Fin 2) * 4096 + 1 * (j 0).val = win0_3.index t (0 : Fin 2) * 4096 + 1 * (j 0).val; omega
    | ⟨1, _⟩ => show win0_1.index t (1 : Fin 2) * 128 + 1 * (j 1).val = win0_3.index t (1 : Fin 2) * 128 + 1 * (j 1).val; omega
  have h2 : ((cfg0.win 2).blk t).view.emb j = ((cfg0.win 3).blk t).view.emb j := by
    funext a; apply Fin.ext
    match a with
    | ⟨0, _⟩ => show win0_2.index t (0 : Fin 2) * 4096 + 1 * (j 0).val = win0_3.index t (0 : Fin 2) * 4096 + 1 * (j 0).val; omega
    | ⟨1, _⟩ => show win0_2.index t (1 : Fin 2) * 128 + 1 * (j 1).val = win0_3.index t (1 : Fin 2) * 128 + 1 * (j 1).val; omega
  rw [h0, h1, h2]

/-- An index of the array is in point `t`'s block iff each coordinate is in the block's range on its axis. -/
theorem mem_blk (t : Fin cfg0.N) (i : S131072x128.Idx) :
    i ∈ ((cfg0.win 3).blk t).view.set ↔ ∀ a : Fin 2, win0_3.index t a * S4096x128.size a ≤ (i a).val ∧ (i a).val < win0_3.index t a * S4096x128.size a + S4096x128.size a := by
  show i ∈ ((View.whole main_v24).slice (win0_3.rect t)).set ↔ _
  rw [View.set_slice_whole, Rect.mem_set_unit]
  exact Iff.rfl

/-- Row `r` lies in the block of the point `r / 4096`: the 32 blocks cover the array. -/
theorem cover (i : S131072x128.Idx) :
    ∃ t : Fin cfg0.N, (cfg0.win 3).flush t = true ∧ i ∈ ((cfg0.win 3).blk t).view.set := by
  have hi0 : (i 0).val < 131072 := (i 0).isLt
  have hi1 : (i 1).val < 128 := (i 1).isLt
  obtain ⟨t, ht⟩ : ∃ t : Fin cfg0.N, t.val = (i 0).val / 4096 :=
    ⟨⟨(i 0).val / 4096, by show (i 0).val / 4096 < grid0.N; rw [N_0]; omega⟩, rfl⟩
  obtain ⟨e0, e1, e2, e3, e4, e5, e6, e7⟩ := idx_facts t
  refine ⟨t, flush0_3 t, ?_⟩
  rw [mem_blk]
  intro a
  match a with
  | ⟨0, _⟩ => show win0_3.index t (0 : Fin 2) * 4096 ≤ (i 0).val ∧ (i 0).val < win0_3.index t (0 : Fin 2) * 4096 + 4096; omega
  | ⟨1, _⟩ => show win0_3.index t (1 : Fin 2) * 128 ≤ (i 1).val ∧ (i 1).val < win0_3.index t (1 : Fin 2) * 128 + 128; omega

/-- THE ARRAY after the region: the pair terms, entry by entry. -/
theorem final (c : Dev nD) : (dats m 0 c).arrAt 3 cfg0.N = G m c :=
  (dats m 0 c).arrAt_eq_of_cover 3 (G m c) (fun t _ => flushed_eq m c t) cover

/-! ## The vectors over the pair index, as functions of the argument arrays -/

/-- Row 0 of the index pairs: each pair's first atom. -/
def idxI (P : IVec S2x16777216 32) : IVec S16777216 32 :=
  shapeCast S16777216 (extractStridedSlice S1x16777216 ![0, 0] P slices_S2x16777216_S1x16777216_0_0) shapeCasts_S1x16777216_S16777216
/-- Row 1: each pair's second atom. -/
def idxJ (P : IVec S2x16777216 32) : IVec S16777216 32 :=
  shapeCast S16777216 (extractStridedSlice S1x16777216 ![1, 0] P slices_S2x16777216_S1x16777216_1_0) shapeCasts_S1x16777216_S16777216
/-- A negative index counts from the table's end. -/
def wrap (x : IVec S16777216 32) : IVec S16777216 32 :=
  select (cmpi .slt x (broadcastInDim S16777216 ![] bcast_S_S16777216 (constantI S_ 32 0#32)))
    (addi x (broadcastInDim S16777216 ![] bcast_S_S16777216 (constantI S_ 32 245760#32))) x
/-- The charges looked up at a vector of atom indices. -/
def charge (q : FVec Ideal S245760 .f32) (x : IVec S16777216 32) : FVec Ideal S16777216 .f32 :=
  Host.gather gather_S245760_S16777216x1_S16777216_n_0_n_n_0_1_1 q (broadcastInDim S16777216x1 ![0] bcast_S16777216_S16777216x1_0 (wrap x))
/-- The pairs that are kept: first index below second. -/
def mask (P : IVec S2x16777216 32) : IVec S16777216 1 := cmpi .slt (idxI P) (idxJ P)
/-- The distances as one vector over the pair index. -/
def dist (D : FVec Ideal S16777216x1 .f32) : FVec Ideal S16777216 .f32 := shapeCast S16777216 D shapeCasts_S16777216x1_S16777216
/-- The first charges with the dropped pairs' zeroed. -/
def maskedCharge (q : FVec Ideal S245760 .f32) (P : IVec S2x16777216 32) : FVec Ideal S16777216 .f32 :=
  select (mask P) (charge q (idxI P)) (broadcastInDim S16777216 ![] bcast_S_S16777216 (id (constant (F := Ideal) S_ .f32 0x00000000#32)))
/-- The pair terms as the kernel arranges them. -/
def terms (q : FVec Ideal S245760 .f32) (P : IVec S2x16777216 32) (D : FVec Ideal S16777216x1 .f32) : FVec Ideal S16777216 .f32 :=
  fun p => contribK (Scalar.select (mask P p) (charge q (idxI P) p) w0) (charge q (idxJ P) p) (dist D p)
/-- Scatter-add of a vector of pair terms into the molecules' energies, added to the given energies, scaled by the
    Coulomb constant: the closing operations the two programs share. -/
def energy (E : FVec Ideal S4096 .f32) (S : IVec S16777216 32) (terms : FVec Ideal S16777216 .f32) : FVec Ideal S4096 .f32 :=
  mulf (addf E (Host.scatterAdd scatter_S4096_S16777216x1_S16777216_n_0_0_1
      (broadcastInDim S4096 ![] bcast_S_S4096 (constant (F := Ideal) S_ .f32 0x00000000#32))
      (broadcastInDim S16777216x1 ![0] bcast_S16777216_S16777216x1_0 S) terms))
    (broadcastInDim S4096 ![] bcast_S_S4096 (constant (F := Ideal) S_ .f32 0x430AF5C3#32))

/-! ## The arrays the region is given, from the arguments -/

/-- The region's three arrays are the masked first charges, the second charges and the distances, each laid out in
    rows of 128 (the host operations before the region, read back). -/
theorem arrA_eq (c : Dev nD) : arrA m c = shapeCast S131072x128 (maskedCharge (m ((c.tc : Thread nD τ).loc main_arg0)) (m ((c.tc : Thread nD τ).loc main_arg1))) shapeCasts_S16777216_S131072x128 := by
  show V m c main_v21 = _
  dsimp only [Gen.V, Gen.V0]
  simp only [Gen.hostOps0, Gen.hostOps0_1, Gen.hostOps0_2, List.flatten_cons, List.flatten_nil, List.append_nil, List.cons_append, List.nil_append]
  after_results
  rfl
theorem arrB_eq (c : Dev nD) : arrB m c = shapeCast S131072x128 (charge (m ((c.tc : Thread nD τ).loc main_arg0)) (idxJ (m ((c.tc : Thread nD τ).loc main_arg1)))) shapeCasts_S16777216_S131072x128 := by
  show V m c main_v22 = _
  dsimp only [Gen.V, Gen.V0]
  simp only [Gen.hostOps0, Gen.hostOps0_1, Gen.hostOps0_2, List.flatten_cons, List.flatten_nil, List.append_nil, List.cons_append, List.nil_append]
  after_results
  rfl
theorem arrD_eq (c : Dev nD) : arrD m c = shapeCast S131072x128 (dist (m ((c.tc : Thread nD τ).loc main_arg2))) shapeCasts_S16777216_S131072x128 := by
  show V m c main_v23 = _
  dsimp only [Gen.V, Gen.V0]
  simp only [Gen.hostOps0, Gen.hostOps0_1, Gen.hostOps0_2, List.flatten_cons, List.flatten_nil, List.append_nil, List.cons_append, List.nil_append]
  after_results
  rfl

/-! ## The pair terms as one vector over the pair index -/

/-- Laying a vector out in rows of 128, working entry by entry, and flattening again is working entry by entry on the
    vector: the two layouts are inverse to each other. -/
theorem flat_terms (c : Dev nD) :
    shapeCast S16777216 (G m c) shapeCasts_S131072x128_S16777216 = terms (m ((c.tc : Thread nD τ).loc main_arg0)) (m ((c.tc : Thread nD τ).loc main_arg1)) (m ((c.tc : Thread nD τ).loc main_arg2)) := by
  funext p
  show contribK (arrA m c (Shape.reshapeEquiv shapeCasts_S131072x128_S16777216 p)) (arrB m c (Shape.reshapeEquiv shapeCasts_S131072x128_S16777216 p))
      (arrD m c (Shape.reshapeEquiv shapeCasts_S131072x128_S16777216 p)) = _
  rw [arrA_eq, arrB_eq, arrD_eq]
  show contribK (shapeCast S16777216 (shapeCast S131072x128 (maskedCharge (m ((c.tc : Thread nD τ).loc main_arg0)) (m ((c.tc : Thread nD τ).loc main_arg1))) shapeCasts_S16777216_S131072x128) shapeCasts_S131072x128_S16777216 p)
      (shapeCast S16777216 (shapeCast S131072x128 (charge (m ((c.tc : Thread nD τ).loc main_arg0)) (idxJ (m ((c.tc : Thread nD τ).loc main_arg1)))) shapeCasts_S16777216_S131072x128) shapeCasts_S131072x128_S16777216 p)
      (shapeCast S16777216 (shapeCast S131072x128 (dist (m ((c.tc : Thread nD τ).loc main_arg2))) shapeCasts_S16777216_S131072x128) shapeCasts_S131072x128_S16777216 p) = _
  rw [shapeCast_shapeCast, shapeCast_shapeCast, shapeCast_shapeCast]
  rfl

/-! ## The operations after the region -/

/-- The result buffer after the whole program: the host operations after the region — flatten, scatter-add, add, scale
    — applied to the array the region left, which is `G`; the index and energy arguments are as launched. -/
theorem tail_eq (c : Dev nD) :
    Pipeline.afterTail₀ cfgs (dats m) 0 (V0 m) [hostOps1] c main_v31
      = energy (m ((c.tc : Thread nD τ).loc main_arg4)) (m ((c.tc : Thread nD τ).loc main_arg3)) (terms (m ((c.tc : Thread nD τ).loc main_arg0)) (m ((c.tc : Thread nD τ).loc main_arg1)) (m ((c.tc : Thread nD τ).loc main_arg2))) := by
  unfold Pipeline.afterTail₀
  show StableHlo.after hostOps1 _ (Proc.devRef .tc main_v31) = _
  after_results
  have hv24 : Pipeline.withArrays (cfgs 0).spec c (V0 m c) (fun w => (dats m 0 c).arrAt w (cfgs 0).N) (Proc.devRef .tc main_v24) = G m c :=
    (Pipeline.withArrays_arr spec0 launch0.win.arr_inj c _ _ 3).trans (final m c)
  have hE : Pipeline.withArrays (cfgs 0).spec c (V0 m c) (fun w => (dats m 0 c).arrAt w (cfgs 0).N) (Proc.devRef .tc main_arg4) = m ((c.tc : Thread nD τ).loc main_arg4) :=
    (Pipeline.withArrays_of_ne _ c (V0 m c) _ main_arg4 (by exact (by decide : ∀ w, Pipeline.arrRef spec0 w ≠ main_arg4))).trans (V_main_arg4 m c)
  have hS : Pipeline.withArrays (cfgs 0).spec c (V0 m c) (fun w => (dats m 0 c).arrAt w (cfgs 0).N) (Proc.devRef .tc main_arg3) = m ((c.tc : Thread nD τ).loc main_arg3) :=
    (Pipeline.withArrays_of_ne _ c (V0 m c) _ main_arg3 (by exact (by decide : ∀ w, Pipeline.arrRef spec0 w ≠ main_arg3))).trans (V_main_arg3 m c)
  rw [hv24, hE, hS]
  show energy (m ((c.tc : Thread nD τ).loc main_arg4)) (m ((c.tc : Thread nD τ).loc main_arg3)) (shapeCast S16777216 (G m c) shapeCasts_S131072x128_S16777216) = _
  rw [flat_terms]

/-! ## The run, read -/

/-- Every weakly fair execution of the program terminates with the result buffer at the energies of the pair terms and
    the five arguments unchanged (the frame run re-posted). -/
theorem run : θ_run defs (onTc (τ := τ) (main (F := Ideal))) ⟨m, fun _ => 0, ρ⟩ fun r => ∀ c : Dev nD,
      r.2.mem ((c.tc : Thread nD τ).loc main_v31)
        = energy (m ((c.tc : Thread nD τ).loc main_arg4)) (m ((c.tc : Thread nD τ).loc main_arg3)) (terms (m ((c.tc : Thread nD τ).loc main_arg0)) (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v31 (Pipeline.mem_restRefs_of main_v31 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.PairValue

end
-- ==== Proof.ReferenceValue.lean ====
/-
  What the reference computes, at the extended reals.

  The reference is a straight line of host operations. Its result is
  `(E + scatter-add of the pair terms into their molecules) · kₑ`, and the pair terms are pointwise in the pair index
  `p`: with `i = idx[0, p]`, `j = idx[1, p]` (a negative index wrapped by the table's length before the look-up),
  `qᵢ`, `qⱼ` the gathered charges and `d` the distance, the term is `qᵢ · qⱼ · χ(d)` where `i < j` and zero elsewhere.
  This module names those vectors as functions of the argument arrays and reads the run's result term as that
  expression.
-/
import proofs.«118864_j58128087384372_1_alg».proof.Proof.Gen.ReferenceIdeal.Run
import proofs.«118864_j58128087384372_1_alg».proof.Proof.BlendLaw
import Idealize.ShloMosaic.Lib.ValueIdx

set_option maxRecDepth 16384

noncomputable section

namespace Cert.ReferenceIdeal.PairValue

open Cert.ReferenceIdeal Cert.ReferenceIdeal.Gen Cert.ReferenceIdeal.Value Idealize.ShloMosaic Idealize.ShloMosaic.TcCoe Idealize.SL.Sem
open Cert.Coulomb

/-! ## The vectors over the pair index, as functions of the argument arrays -/

/-- Row 0 of the index pairs: each pair's first atom. -/
def idxI (P : IVec S2x16777216 32) : IVec S16777216 32 :=
  shapeCast S16777216 (extractStridedSlice S1x16777216 ![0, 0] P slices_S2x16777216_S1x16777216_0_0) shapeCasts_S1x16777216_S16777216
/-- Row 1: each pair's second atom. -/
def idxJ (P : IVec S2x16777216 32) : IVec S16777216 32 :=
  shapeCast S16777216 (extractStridedSlice S1x16777216 ![1, 0] P slices_S2x16777216_S1x16777216_1_0) shapeCasts_S1x16777216_S16777216
/-- A negative index counts from the table's end. -/
def wrap (x : IVec S16777216 32) : IVec S16777216 32 :=
  select (cmpi .slt x (broadcastInDim S16777216 ![] bcast_S_S16777216 (constantI S_ 32 0#32)))
    (addi x (broadcastInDim S16777216 ![] bcast_S_S16777216 (constantI S_ 32 245760#32))) x
/-- The charges looked up at a vector of atom indices. -/
def charge (q : FVec Ideal S245760 .f32) (x : IVec S16777216 32) : FVec Ideal S16777216 .f32 :=
  Host.gather gather_S245760_S16777216x1_S16777216_n_0_n_n_0_1_1 q (broadcastInDim S16777216x1 ![0] bcast_S16777216_S16777216x1_0 (wrap x))
/-- The pairs that are kept: first index below second. -/
def mask (P : IVec S2x16777216 32) : IVec S16777216 1 := cmpi .slt (idxI P) (idxJ P)
/-- The distances as one vector over the pair index. -/
def dist (D : FVec Ideal S16777216x1 .f32) : FVec Ideal S16777216 .f32 := shapeCast S16777216 D shapeCasts_S16777216x1_S16777216
/-- The pair terms as the reference arranges them. -/
def terms (q : FVec Ideal S245760 .f32) (P : IVec S2x16777216 32) (D : FVec Ideal S16777216x1 .f32) : FVec Ideal S16777216 .f32 :=
  fun p => contribR (mask P p) (charge q (idxI P) p) (charge q (idxJ P) p) (dist D p)
/-- Scatter-add of a vector of pair terms into the molecules' energies, added to the given energies, scaled by the
    Coulomb constant: the closing operations the two programs share. -/
def energy (E : FVec Ideal S4096 .f32) (S : IVec S16777216 32) (terms : FVec Ideal S16777216 .f32) : FVec Ideal S4096 .f32 :=
  mulf (addf E (Host.scatterAdd scatter_S4096_S16777216x1_S16777216_n_0_0_1
      (broadcastInDim S4096 ![] bcast_S_S4096 (constant (F := Ideal) S_ .f32 0x00000000#32))
      (broadcastInDim S16777216x1 ![0] bcast_S16777216_S16777216x1_0 S) terms))
    (broadcastInDim S4096 ![] bcast_S_S4096 (constant (F := Ideal) S_ .f32 0x430AF5C3#32))

/-- THE REFERENCE'S RESULT is the energies of its pair terms: the run's composed term, read one pair at a time (every
    operation between the look-ups and the scatter is pointwise, so the two spell the same function). -/
theorem res_eq (m : (ℓ : Loc nD τ sig) → Buf (Elt Ideal) ℓ) (c : Dev nD) :
    res_main_v61 (F := Ideal) m c
      = energy (m ((c.tc : Thread nD τ).loc main_arg4)) (m ((c.tc : Thread nD τ).loc main_arg3)) (terms (m ((c.tc : Thread nD τ).loc main_arg0)) (m ((c.tc : Thread nD τ).loc main_arg1)) (m ((c.tc : Thread nD τ).loc main_arg2))) := by
  unfold res_main_v61 energy
  congr 3

end Cert.ReferenceIdeal.PairValue

end
-- ==== Proof.lean ====
/-
  The cutoff-weighted Coulomb energy per molecule: a pipelined kernel for the per-pair terms, between the same
  look-ups and the same scatter-add as the reference, certified equal to the reference over the extended reals.

  Both programs gather the two charges of every pair, form the pair's term `qᵢ · qⱼ · χ(d)` with
  `χ(d) = φ(2d) / √(d² + 1) + (1 - φ(2d)) / d` (`φ` the smooth cutoff polynomial below `2d = 1`, zero from there on),
  keep it only where the pair's first index is below its second, scatter-add the terms into the molecules' energies,
  add the given energies and scale by the Coulomb constant. They differ in how a pair's term is arranged (reciprocal
  square root and reciprocal distance against two quotients; a product with one against a quotient by one; the order
  of one product; the first charge zeroed before the products against a selection after them) and in that the kernel
  works on the pair index laid out in rows of 128, block by block. The arrangements agree at every REAL NONZERO
  distance (Proof/BlendLaw.lean); the precondition gives exactly that of every distance (Proof/Distances.lean: each
  is finite and, the reference's own quotient by `d` being undefined at zero, nonzero). The kernel's array of terms,
  flattened, is the vector of its terms pair by pair (Proof/KernelValue.lean), the reference's result is the same closing
  operations over its vector of terms (Proof/ReferenceValue.lean), and the two vectors are equal entry by entry.

  The three frames are the generated ones (the reference's is its run with the result dropped); the idealization
  rewrote nothing, so `preserves` has nothing to state.
-/
import proofs.«118864_j58128087384372_1_alg».proof.Defs
import proofs.«118864_j58128087384372_1_alg».proof.Proof.Gen.Kernel
import proofs.«118864_j58128087384372_1_alg».proof.Proof.Gen.Kernel.Skeleton
import proofs.«118864_j58128087384372_1_alg».proof.Proof.Gen.Kernel.Launch
import proofs.«118864_j58128087384372_1_alg».proof.Proof.Gen.Kernel.Points
import proofs.«118864_j58128087384372_1_alg».proof.Proof.Gen.Kernel.Frame
import proofs.«118864_j58128087384372_1_alg».proof.Proof.Gen.KernelIdeal
import proofs.«118864_j58128087384372_1_alg».proof.Proof.Gen.KernelIdeal.Skeleton
import proofs.«118864_j58128087384372_1_alg».proof.Proof.Gen.KernelIdeal.Launch
import proofs.«118864_j58128087384372_1_alg».proof.Proof.Gen.KernelIdeal.Points
import proofs.«118864_j58128087384372_1_alg».proof.Proof.Gen.KernelIdeal.Frame
import proofs.«118864_j58128087384372_1_alg».proof.Proof.Gen.ReferenceIdeal
import proofs.«118864_j58128087384372_1_alg».proof.Proof.Gen.ReferenceIdeal.Run
import proofs.«118864_j58128087384372_1_alg».proof.Proof.Gen.Pre_finite_inputs
import proofs.«118864_j58128087384372_1_alg».proof.Proof.BlendLaw
import proofs.«118864_j58128087384372_1_alg».proof.Proof.Distances
import proofs.«118864_j58128087384372_1_alg».proof.Proof.KernelValue
import proofs.«118864_j58128087384372_1_alg».proof.Proof.ReferenceValue
import Idealize.ShloMosaic.Adequacy
import Idealize.ShloMosaic.Init

set_option maxRecDepth 16384

noncomputable section

namespace Cert.Proof

open Idealize.ShloMosaic Idealize.ShloMosaic.TcCoe Idealize.SL.Sem Cert.Coulomb

/-! ## The frames, and the idealization -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation: nothing to preserve. -/
theorem preserves : Cert.preserves_Kernel_KernelIdeal := trivial

/-! ## The two vectors of pair terms -/

/-- Where every distance is a nonzero real the reference's pair terms are the kernel's, pair by pair: the two programs
    look the same charges up by the same indices and read the same distance, and the two arrangements of one pair's
    term agree there. -/
theorem terms_eq (q : FVec Ideal Cert.KernelIdeal.S245760 .f32) (P : IVec Cert.KernelIdeal.S2x16777216 32)
    (D : FVec Ideal Cert.KernelIdeal.S16777216x1 .f32) (hD : ∀ i, ∃ r : ℝ, r ≠ 0 ∧ D i = (r : EReal)) :
    Cert.ReferenceIdeal.PairValue.terms q P D = Cert.KernelIdeal.PairValue.terms q P D := by
  funext p
  obtain ⟨r, hr, hx⟩ := hD (Shape.reshapeEquiv Cert.KernelIdeal.Gen.shapeCasts_S16777216x1_S16777216 p)
  show contribR (Cert.KernelIdeal.PairValue.mask P p) (Cert.KernelIdeal.PairValue.charge q (Cert.KernelIdeal.PairValue.idxI P) p)
      (Cert.KernelIdeal.PairValue.charge q (Cert.KernelIdeal.PairValue.idxJ P) p)
      (D (Shape.reshapeEquiv Cert.KernelIdeal.Gen.shapeCasts_S16777216x1_S16777216 p))
    = contribK (Scalar.select (Cert.KernelIdeal.PairValue.mask P p) (Cert.KernelIdeal.PairValue.charge q (Cert.KernelIdeal.PairValue.idxI P) p) w0)
      (Cert.KernelIdeal.PairValue.charge q (Cert.KernelIdeal.PairValue.idxJ P) p)
      (D (Shape.reshapeEquiv Cert.KernelIdeal.Gen.shapeCasts_S16777216x1_S16777216 p))
  rw [hx]
  exact (contrib_eq _ _ _ r hr).symm

/-! ## The claims -/

/-- From memories agreeing on the five arguments both programs end, the kernel's result buffer and the reference's at
    the same energies: the closing operations are the same and the vectors of pair terms are equal (`terms_eq`, the
    precondition making every distance a nonzero real). -/
theorem algebraic : Cert.algebraic_KernelIdeal_ReferenceIdeal := by
  intro m ρ m' ρ' hpre hagree
  refine ⟨fun c => Cert.KernelIdeal.PairValue.energy (m ((c.tc : Thread Cert.KernelIdeal.nD Cert.KernelIdeal.τ).loc Cert.KernelIdeal.main_arg4)) (m ((c.tc : Thread Cert.KernelIdeal.nD Cert.KernelIdeal.τ).loc Cert.KernelIdeal.main_arg3))
      (Cert.KernelIdeal.PairValue.terms (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))),
    Cert.KernelIdeal.PairValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4⟩ := hagree c
  have hD : ∀ i : Cert.KernelIdeal.S16777216x1.Idx, ∃ r : ℝ, r ≠ 0 ∧ (m ((c.tc : Thread Cert.KernelIdeal.nD Cert.KernelIdeal.τ).loc Cert.KernelIdeal.main_arg2)) i = (r : EReal) :=
    fun i => Cert.Pre_finite_inputs.Decode.dist_real_ne_zero _ _ _ _ _ (hpre c) i
  rw [Cert.ReferenceIdeal.PairValue.res_eq, h0, h1, h2, h3, h4, terms_eq _ _ _ hD]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
